-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048 : Shape := ⟨2, ![16, 2048]⟩
abbrev S50257x8 : Shape := ⟨2, ![50257, 8]⟩
abbrev S50257x128 : Shape := ⟨2, ![50257, 128]⟩
abbrev S_ : Shape := ⟨0, ![]⟩

class Facts : Prop where
  bcast_S_S50257x128 : S_.BroadcastsInDim S50257x128 (![] : Fin 0 → Fin S50257x128.rank)
  reducesTo_S50257x128_S_d0_1 : S50257x128.ReducesTo [0, 1] S_
  h_S_ : 0 < S_.numel
  bcast_S_S16x2048 : S_.BroadcastsInDim S16x2048 (![] : Fin 0 → Fin S16x2048.rank)
  reducesTo_S16x2048_S_d0_1 : S16x2048.ReducesTo [0, 1] S_
  bcast_S_S50257x8 : S_.BroadcastsInDim S50257x8 (![] : Fin 0 → Fin S50257x8.rank)
  reducesTo_S50257x8_S_d0_1 : S50257x8.ReducesTo [0, 1] S_

variable [Facts]

def fn {F : FTy → Type} [FloatOps F] (main_arg0 : IVec S16x2048 32) (main_arg1 : IVec S50257x8 32) (main_arg2 : FVec F S50257x128 .f32) : IVec S_ 1 :=
  let main_v0 : FVec F S50257x128 .f32 := Host.absf main_arg2
  let main_cst : FVec F S_ .f32 := constant S_ .f32 0x7F800000#32
  let main_v1 : FVec F S50257x128 .f32 := broadcastInDim S50257x128 ![] bcast_S_S50257x128 main_cst
  let main_v2 : IVec S50257x128 1 := cmpf .olt main_v0 main_v1
  let main_c : IVec S_ 1 := constantI S_ 1 1#1
  let main_v3 : IVec S_ 1 := (fun x v => Host.reduce IntOp.andi x v reducesTo_S50257x128_S_d0_1 h_S_) main_v2 main_c
  let main_c_0 : IVec S_ 32 := constantI S_ 32 0#32
  let main_v4 : IVec S16x2048 32 := broadcastInDim S16x2048 ![] bcast_S_S16x2048 main_c_0
  let main_v5 : IVec S16x2048 1 := cmpi .sge main_arg0 main_v4
  let main_c_1 : IVec S_ 1 := constantI S_ 1 1#1
  let main_v6 : IVec S_ 1 := (fun x v => Host.reduce IntOp.andi x v reducesTo_S16x2048_S_d0_1 h_S_) main_v5 main_c_1
  let main_v7 : IVec S_ 1 := andi main_v3 main_v6
  let main_c_2 : IVec S_ 32 := constantI S_ 32 0#32
  let main_v8 : IVec S50257x8 32 := broadcastInDim S50257x8 ![] bcast_S_S50257x8 main_c_2
  let main_v9 : IVec S50257x8 1 := cmpi .sge main_arg1 main_v8
  let main_c_3 : IVec S_ 1 := constantI S_ 1 1#1
  let main_v10 : IVec S_ 1 := (fun x v => Host.reduce IntOp.andi x v reducesTo_S50257x8_S_d0_1 h_S_) main_v9 main_c_3
  let main_v11 : IVec S_ 1 := andi main_v7 main_v10
  main_v11
-- ==== Kernel.lean ====
abbrev S16x2048 : Shape := ⟨2, ![16, 2048]⟩
abbrev S50257x8 : Shape := ⟨2, ![50257, 8]⟩
abbrev S50257x128 : Shape := ⟨2, ![50257, 128]⟩
abbrev S50257 : Shape := ⟨1, ![50257]⟩
abbrev S_ : Shape := ⟨0, ![]⟩
abbrev S50257x1 : Shape := ⟨2, ![50257, 1]⟩
abbrev S50257x8x1 : Shape := ⟨3, ![50257, 8, 1]⟩
abbrev S50257x8x128 : Shape := ⟨3, ![50257, 8, 128]⟩
abbrev S50432x128 : Shape := ⟨2, ![50432, 128]⟩
abbrev S32768x1 : Shape := ⟨2, ![32768, 1]⟩
abbrev S32768x128 : Shape := ⟨2, ![32768, 128]⟩
abbrev S4096x1 : Shape := ⟨2, ![4096, 1]⟩
abbrev S256x128 : Shape := ⟨2, ![256, 128]⟩
abbrev S4096x128 : Shape := ⟨2, ![4096, 128]⟩
abbrev S1x256 : Shape := ⟨2, ![1, 256]⟩
abbrev S4096x256 : Shape := ⟨2, ![4096, 256]⟩
abbrev S16x2048x128 : Shape := ⟨3, ![16, 2048, 128]⟩

abbrev nBuf : Space → Nat
  | .hbm => 45
  | .vmem => 6
  | .smem => 0
  | _ => 0

abbrev bufTy : (tb : Table) → Fin (tcTables nBuf tb) → BufTy
  | .hbm, ⟨0, _⟩ => ⟨S16x2048, .i32⟩
  | .hbm, ⟨1, _⟩ => ⟨S50257x8, .i32⟩
  | .hbm, ⟨2, _⟩ => ⟨S50257x128, .f32⟩
  | .hbm, ⟨3, _⟩ => ⟨S50257, .i32⟩
  | .hbm, ⟨4, _⟩ => ⟨S_, .i32⟩
  | .hbm, ⟨5, _⟩ => ⟨S50257, .i32⟩
  | .hbm, ⟨6, _⟩ => ⟨S50257, .i1⟩
  | .hbm, ⟨7, _⟩ => ⟨S50257, .f32⟩
  | .hbm, ⟨8, _⟩ => ⟨S50257x1, .f32⟩
  | .hbm, ⟨9, _⟩ => ⟨S50257x128, .f32⟩
  | .hbm, ⟨10, _⟩ => ⟨S50257x128, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S50257x8, .i32⟩
  | .hbm, ⟨15, _⟩ => ⟨S50257x8, .i32⟩
  | .hbm, ⟨16, _⟩ => ⟨S_, .i32⟩
  | .hbm, ⟨17, _⟩ => ⟨S50257x8, .i32⟩
  | .hbm, ⟨18, _⟩ => ⟨S50257x8, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S16x2048, .i32⟩
  | .hbm, ⟨23, _⟩ => ⟨S16x2048, .i32⟩
  | .hbm, ⟨24, _⟩ => ⟨S_, .i32⟩
  | .hbm, ⟨25, _⟩ => ⟨S16x2048, .i32⟩
  | .hbm, ⟨26, _⟩ => ⟨S16x2048, .i32⟩
  | .hbm, ⟨27, _⟩ => ⟨S_, .i32⟩
  | .hbm, ⟨28, _⟩ => ⟨S50257x8, .i32⟩
  | .hbm, ⟨29, _⟩ => ⟨S50257x8, .i1⟩
  | .hbm, ⟨30, _⟩ => ⟨S_, .i32⟩
  | .hbm, ⟨31, _⟩ => ⟨S50257x8, .i32⟩
  | .hbm, ⟨32, _⟩ => ⟨S50257x8, .i32⟩
  | .hbm, ⟨33, _⟩ => ⟨S50257x8, .i32⟩
  | .hbm, ⟨34, _⟩ => ⟨S50257x8x1, .i32⟩
  | .hbm, ⟨35, _⟩ => ⟨S50257x8x128, .f32⟩
  | .hbm, ⟨36, _⟩ => ⟨S_, .f32⟩
  | .hbm, ⟨37, _⟩ => ⟨S50257x128, .f32⟩
  | .hbm, ⟨38, _⟩ => ⟨S50257x128, .bf16⟩
  | .hbm, ⟨39, _⟩ => ⟨S_, .i32⟩
  | .hbm, ⟨40, _⟩ => ⟨S_, .bf16⟩
  | .hbm, ⟨41, _⟩ => ⟨S50432x128, .bf16⟩
  | .hbm, ⟨42, _⟩ => ⟨S32768x1, .i32⟩
  | .hbm, ⟨43, _⟩ => ⟨S32768x128, .f32⟩
  | .hbm, ⟨44, _⟩ => ⟨S16x2048x128, .f32⟩
  | .local _ .vmem, ⟨0, _⟩ => ⟨S4096x1, .i32⟩
  | .local _ .vmem, ⟨1, _⟩ => ⟨S4096x1, .i32⟩
  | .local _ .vmem, ⟨2, _⟩ => ⟨S256x128, .bf16⟩
  | .local _ .vmem, ⟨3, _⟩ => ⟨S256x128, .bf16⟩
  | .local _ .vmem, ⟨4, _⟩ => ⟨S4096x128, .f32⟩
  | .local _ .vmem, ⟨5, _⟩ => ⟨S4096x128, .f32⟩
  | _, _ => ⟨S16x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_c_2 : Ref sig .tc := ⟨.hbm, 19, rfl⟩
abbrev main_c_3 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v8 : Ref sig .tc := ⟨.hbm, 26, rfl⟩
abbrev main_c_4 : Ref sig .tc := ⟨.hbm, 27, rfl⟩
abbrev main_v9 : Ref sig .tc := ⟨.hbm, 28, rfl⟩
abbrev main_v10 : Ref sig .tc := ⟨.hbm, 29, rfl⟩
abbrev main_c_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_call2_v0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 197], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S50257 : S_.BroadcastsInDim S50257 (![] : Fin 0 → Fin S50257.rank)
  bcast_S50257_S50257x1_0 : S50257.BroadcastsInDim S50257x1 (![0] : Fin 1 → Fin S50257x1.rank)
  bcast_S50257x1_S50257x128_0_1 : S50257x1.BroadcastsInDim S50257x128 (![0, 1] : Fin 2 → Fin S50257x128.rank)
  bcast_S_S50257x8 : S_.BroadcastsInDim S50257x8 (![] : Fin 0 → Fin S50257x8.rank)
  bcast_S_S16x2048 : S_.BroadcastsInDim S16x2048 (![] : Fin 0 → Fin S16x2048.rank)
  bcast_S50257x8_S50257x8x1_0_1 : S50257x8.BroadcastsInDim S50257x8x1 (![0, 1] : Fin 2 → Fin S50257x8x1.rank)
  reducesTo_S50257x8x128_S50257x128_d1 : S50257x8x128.ReducesTo [1] S50257x128
  h_S_ : 0 < S_.numel
  bitsLt_bf16_f32 : FTy.bits .bf16 < FTy.bits .f32
  pads_S50257x128_S50432x128_01750_000 : S50257x128.Pads (![0, 0] : Fin 2 → Nat) ![175, 0] ![0, 0] S50432x128
  shapeCasts_S16x2048_S32768x1 : S16x2048.ShapeCasts S32768x1
  inb_S4096x128_S4096x128_0_0 : ∀ a, (![0, 0] : Fin 2 → Nat) a + S4096x128.size a ≤ S4096x128.size a
  h_S4096x128 : 0 < S4096x128.numel
  iota_S1x256_d1_w32 : S1x256.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x256 : S4096x1.Broadcasts S4096x256
  broadcasts_S1x256_S4096x256 : S1x256.Broadcasts S4096x256
  natLt_1_32 : 1 < 32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S4096x128_S4096x128 : S4096x128.ShapeCasts S4096x128
  shapeCasts_S32768x128_S16x2048x128 : S32768x128.ShapeCasts S16x2048x128
  gather_S50257x128_S50257x8x1_S50257x8x128_2_0_n_n_0_2_1128_wf : GatherDims.WF S50257x128 S50257x8x1 S50257x8x128 [2] [0] [] [0] [] 2 ![1, 128]
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S32768x1.size a
  hwx0_0 : ∀ i : grid0.Coords, EltTy.bits .i32 = 32 ∨ (Rect.block (s := S32768x1) S4096x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S50432x128.size a
  hwx0_1 : ∀ i : grid0.Coords, EltTy.bits .bf16 = 32 ∨ (Rect.block (s := S50432x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S32768x128.size a
  hwx0_2 : ∀ i : grid0.Coords, EltTy.bits .f32 = 32 ∨ (Rect.block (s := S32768x128) S4096x128.size (cc0_transform_2 i) (hinb0_2 i)).WholeWords (EltTy.packing .f32)

variable [Facts₀]

def gather_S50257x128_S50257x8x1_S50257x8x128_2_0_n_n_0_2_1128 : GatherDims S50257x128 S50257x8x1 S50257x8x128 where
  offsetDims := [2]
  collapsedSliceDims := [0]
  operandBatchingDims := []
  startIndicesBatchingDims := []
  startIndexMap := [0]
  indexVectorDim := 2
  sliceSizes := ![1, 128]
  wf := gather_S50257x128_S50257x8x1_S50257x8x128_2_0_n_n_0_2_1128_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v19) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048 : Shape := ⟨2, ![16, 2048]⟩
abbrev S50257x8 : Shape := ⟨2, ![50257, 8]⟩
abbrev S50257x128 : Shape := ⟨2, ![50257, 128]⟩
abbrev S50257 : Shape := ⟨1, ![50257]⟩
abbrev S_ : Shape := ⟨0, ![]⟩
abbrev S50257x1 : Shape := ⟨2, ![50257, 1]⟩
abbrev S16x2048x1 : Shape := ⟨3, ![16, 2048, 1]⟩
abbrev S16x2048x8 : Shape := ⟨3, ![16, 2048, 8]⟩
abbrev S16x2048x8x1 : Shape := ⟨4, ![16, 2048, 8, 1]⟩
abbrev S16x2048x8x128 : Shape := ⟨4, ![16, 2048, 8, 128]⟩
abbrev S16x2048x128 : Shape := ⟨3, ![16, 2048, 128]⟩

abbrev nBuf : Space → Nat
  | .hbm => 31
  | .vmem => 0
  | .smem => 0
  | _ => 0

abbrev bufTy : (tb : Table) → Fin (tcTables nBuf tb) → BufTy
  | .hbm, ⟨0, _⟩ => ⟨S16x2048, .i32⟩
  | .hbm, ⟨1, _⟩ => ⟨S50257x8, .i32⟩
  | .hbm, ⟨2, _⟩ => ⟨S50257x128, .f32⟩
  | .hbm, ⟨3, _⟩ => ⟨S50257, .i32⟩
  | .hbm, ⟨4, _⟩ => ⟨S_, .i32⟩
  | .hbm, ⟨5, _⟩ => ⟨S50257, .i32⟩
  | .hbm, ⟨6, _⟩ => ⟨S50257, .i1⟩
  | .hbm, ⟨7, _⟩ => ⟨S50257, .f32⟩
  | .hbm, ⟨8, _⟩ => ⟨S50257x1, .f32⟩
  | .hbm, ⟨9, _⟩ => ⟨S50257x128, .f32⟩
  | .hbm, ⟨10, _⟩ => ⟨S50257x128, .f32⟩
  | .hbm, ⟨11, _⟩ => ⟨S_, .i32⟩
  | .hbm, ⟨12, _⟩ => ⟨S16x2048, .i32⟩
  | .hbm, ⟨13, _⟩ => ⟨S16x2048, .i1⟩
  | .hbm, ⟨14, _⟩ => ⟨S_, .i32⟩
  | .hbm, ⟨15, _⟩ => ⟨S16x2048, .i32⟩
  | .hbm, ⟨16, _⟩ => ⟨S16x2048, .i32⟩
  | .hbm, ⟨17, _⟩ => ⟨S16x2048, .i32⟩
  | .hbm, ⟨18, _⟩ => ⟨S16x2048x1, .i32⟩
  | .hbm, ⟨19, _⟩ => ⟨S16x2048x8, .i32⟩
  | .hbm, ⟨20, _⟩ => ⟨S_, .i32⟩
  | .hbm, ⟨21, _⟩ => ⟨S16x2048x8, .i32⟩
  | .hbm, ⟨22, _⟩ => ⟨S16x2048x8, .i1⟩
  | .hbm, ⟨23, _⟩ => ⟨S_, .i32⟩
  | .hbm, ⟨24, _⟩ => ⟨S16x2048x8, .i32⟩
  | .hbm, ⟨25, _⟩ => ⟨S16x2048x8, .i32⟩
  | .hbm, ⟨26, _⟩ => ⟨S16x2048x8, .i32⟩
  | .hbm, ⟨27, _⟩ => ⟨S16x2048x8x1, .i32⟩
  | .hbm, ⟨28, _⟩ => ⟨S16x2048x8x128, .f32⟩
  | .hbm, ⟨29, _⟩ => ⟨S_, .f32⟩
  | .hbm, ⟨30, _⟩ => ⟨S16x2048x128, .f32⟩
  | _, _ => ⟨S16x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  bcast_S_S50257 : S_.BroadcastsInDim S50257 (![] : Fin 0 → Fin S50257.rank)
  bcast_S50257_S50257x1_0 : S50257.BroadcastsInDim S50257x1 (![0] : Fin 1 → Fin S50257x1.rank)
  bcast_S50257x1_S50257x128_0_1 : S50257x1.BroadcastsInDim S50257x128 (![0, 1] : Fin 2 → Fin S50257x128.rank)
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S_S16x2048x8 : S_.BroadcastsInDim S16x2048x8 (![] : Fin 0 → Fin S16x2048x8.rank)
  bcast_S16x2048x8_S16x2048x8x1_0_1_2 : S16x2048x8.BroadcastsInDim S16x2048x8x1 (![0, 1, 2] : Fin 3 → Fin S16x2048x8x1.rank)
  reducesTo_S16x2048x8x128_S16x2048x128_d2 : S16x2048x8x128.ReducesTo [2] S16x2048x128
  h_S_ : 0 < S_.numel
  gather_S50257x8_S16x2048x1_S16x2048x8_2_0_n_n_0_2_18_wf : GatherDims.WF S50257x8 S16x2048x1 S16x2048x8 [2] [0] [] [0] [] 2 ![1, 8]
  gather_S50257x128_S16x2048x8x1_S16x2048x8x128_3_0_n_n_0_3_1128_wf : GatherDims.WF S50257x128 S16x2048x8x1 S16x2048x8x128 [3] [0] [] [0] [] 3 ![1, 128]

variable [Facts₀]

def gather_S50257x8_S16x2048x1_S16x2048x8_2_0_n_n_0_2_18 : GatherDims S50257x8 S16x2048x1 S16x2048x8 where
  offsetDims := [2]
  collapsedSliceDims := [0]
  operandBatchingDims := []
  startIndicesBatchingDims := []
  startIndexMap := [0]
  indexVectorDim := 2
  sliceSizes := ![1, 8]
  wf := gather_S50257x8_S16x2048x1_S16x2048x8_2_0_n_n_0_2_18_wf
def gather_S50257x128_S16x2048x8x1_S16x2048x8x128_3_0_n_n_0_3_1128 : GatherDims S50257x128 S16x2048x8x1 S16x2048x8x128 where
  offsetDims := [3]
  collapsedSliceDims := [0]
  operandBatchingDims := []
  startIndicesBatchingDims := []
  startIndexMap := [0]
  indexVectorDim := 3
  sliceSizes := ![1, 128]
  wf := gather_S50257x128_S16x2048x8x1_S16x2048x8x128_3_0_n_n_0_3_1128_wf

class Facts : Prop extends Facts₀ where

variable [Facts]
-- ==== Proof.Spec.lean ====
/-
  The specification both programs meet, as one function of the three argument arrays.

  A start word `x` of either gather reads the table's row `row x`: the word read as a signed integer and clamped
  into [0, 50256]. The result at token (b, s) and feature f is the initial value `z` of the sum plus, over the eight
  reservoir slots r, the (masked) table at row `row (look[row (tok[b, s]), r])` and column f.
-/
import Idealize.ShloMosaic.PureOps.Ideal
import Idealize.ShloMosaic.Lib.ValueIdx

noncomputable section

namespace Cert.Pooling

open Idealize.ShloMosaic Idealize.ShloMosaic.ValueIdx

/-- The token ids [16, 2048], the reservoir table [50257, 8], the embedding table [50257, 128], the result [16, 2048, 128]. -/
abbrev STok : Shape := ⟨2, ![16, 2048]⟩
abbrev SLook : Shape := ⟨2, ![50257, 8]⟩
abbrev STab : Shape := ⟨2, ![50257, 128]⟩
abbrev SOut : Shape := ⟨3, ![16, 2048, 128]⟩

/-- The row of a 50257-row table that a start word reads: signed, clamped into [0, 50256]. -/
def row (x : BitVec 32) : Fin 50257 := ⟨min x.toInt.toNat 50256, by omega⟩

/-- Row `v` of the pooled table: the sum's initial value plus the table's rows named by `look[v, ·]`, at column `f`. -/
def pooled (look : IVec SLook 32) (tab : STab.Idx → EReal) (z : EReal) (v : Fin 50257) (f : Fin 128) : EReal :=
  z + ∑ r : Fin 8, tab (ix2 (row (look (ix2 v r))) f)

/-- The result: token (b, s) reads the pooled row its id names. -/
def G (tok : IVec STok 32) (look : IVec SLook 32) (tab : STab.Idx → EReal) (z : EReal) : SOut.Idx → EReal :=
  fun j => pooled look tab z (row (tok (ix2 (j 0) (j 1)))) (j 2)

theorem G_ix3 (tok : IVec STok 32) (look : IVec SLook 32) (tab : STab.Idx → EReal) (z : EReal)
    (b : Fin 16) (s : Fin 2048) (f : Fin 128) :
    G tok look tab z (ix3 b s f) = pooled look tab z (row (tok (ix2 b s))) f := rfl

end Cert.Pooling

end
-- ==== Proof.Words.lean ====
/-
  The two integer maps the programs apply to an index word before a gather, against the row the gather reads.

  `clipw` is the kernel's clamp of a word into [0, 50256] (signed maximum with 0, then signed minimum with 50256); `wrapw` is
  jnp's normalisation of a negative index (add the table's length 50257 to a negative word). The gather itself reads row
  `Cert.Pooling.row x`: the word signed, clamped into [0, 50256]. On a non-negative word the wrap is the identity, and the clamp
  followed by the gather's own clamp reads the same row as the gather alone.
-/
import proofs.«423974_j74251394613895_2_alg».proof.Proof.Spec
import Idealize.ShloMosaic.PureOps.Float

namespace Cert.Pooling

open Idealize.ShloMosaic

/-- The kernel's clamp of an index word into [0, 50256]. -/
def clipw (x : BitVec 32) : BitVec 32 := IntOp.minsi 50256#32 (IntOp.maxsi 0#32 x)
/-- jnp's wrap of a negative index word: 50257 is added to it. -/
def wrapw (x : BitVec 32) : BitVec 32 := Scalar.select (IntOp.cmpi .slt x 0#32) (IntOp.addi x 50257#32) x

theorem toInt_zero32 : (0#32 : BitVec 32).toInt = 0 := by decide
theorem toInt_50256 : (50256#32 : BitVec 32).toInt = 50256 := by decide

/-- A word that reads non-negative signed reads the same unsigned. -/
theorem toNat_of_nonneg {x : BitVec 32} (h : 0 ≤ x.toInt) : (x.toNat : Int) = x.toInt := by
  have := x.isLt
  rw [BitVec.toInt_eq_toNat_cond] at h ⊢
  split at h <;> split <;> omega

/-- The clamp, read signed: the word's value clamped into [0, 50256]. -/
theorem clipw_toInt (x : BitVec 32) : (clipw x).toInt = min (max x.toInt 0) 50256 := by
  unfold clipw IntOp.minsi IntOp.maxsi
  by_cases h1 : x.slt 0#32
  · rw [if_pos h1]
    have h1' : x.toInt < 0 := by simpa [BitVec.slt, toInt_zero32] using h1
    have h2 : ¬ (50256#32 : BitVec 32).slt 0#32 := by decide
    rw [if_neg h2, toInt_zero32]; omega
  · rw [if_neg h1]
    have h1' : 0 ≤ x.toInt := by
      have : ¬ x.toInt < 0 := by simpa [BitVec.slt, toInt_zero32] using h1
      omega
    by_cases h2 : (50256#32 : BitVec 32).slt x
    · rw [if_pos h2]
      have : 50256 < x.toInt := by simpa [BitVec.slt, toInt_50256] using h2
      rw [toInt_50256]; omega
    · rw [if_neg h2]
      have : ¬ 50256 < x.toInt := by simpa [BitVec.slt, toInt_50256] using h2
      omega

theorem clipw_nonneg (x : BitVec 32) : 0 ≤ (clipw x).toInt := by rw [clipw_toInt]; omega
theorem clipw_toInt_le (x : BitVec 32) : (clipw x).toInt ≤ 50256 := by rw [clipw_toInt]; omega

/-- The clamped word, read unsigned, is at most 50256. -/
theorem clipw_toNat_le (x : BitVec 32) : (clipw x).toNat ≤ 50256 := by
  have h := toNat_of_nonneg (clipw_nonneg x)
  have := clipw_toInt_le x
  omega

/-- On a non-negative word the wrap does nothing. -/
theorem wrapw_of_nonneg {x : BitVec 32} (h : 0 ≤ x.toInt) : wrapw x = x := by
  unfold wrapw Scalar.select IntOp.cmpi
  have : x.slt 0#32 = false := by
    simp only [BitVec.slt, toInt_zero32, decide_eq_false_iff_not]; omega
  rw [this]; rfl

/-- The row a gather reads at a word already inside [0, 50256] is the word. -/
theorem row_val_of_le {x : BitVec 32} (h0 : 0 ≤ x.toInt) (h : x.toInt ≤ 50256) : (row x).val = x.toNat := by
  have := toNat_of_nonneg h0
  show min x.toInt.toNat 50256 = x.toNat
  omega

/-- The clamped word names, as a row, its own unsigned value. -/
theorem row_clipw_val (x : BitVec 32) : (row (clipw x)).val = (clipw x).toNat :=
  row_val_of_le (clipw_nonneg x) (clipw_toInt_le x)

/-- On a non-negative word the kernel's clamp reads the row the gather's own clamp reads. -/
theorem clipw_toNat_of_nonneg {x : BitVec 32} (h : 0 ≤ x.toInt) : (clipw x).toNat = (row x).val := by
  have h1 := toNat_of_nonneg (clipw_nonneg x)
  have h2 := clipw_toInt x
  show (clipw x).toNat = min x.toInt.toNat 50256
  omega

/-- The kernel's route to a row — clamp, wrap, then the gather's clamp — reads the gather's row, on a non-negative word. -/
theorem row_wrapw_clipw {x : BitVec 32} (h : 0 ≤ x.toInt) : row (wrapw (clipw x)) = row x := by
  rw [wrapw_of_nonneg (clipw_nonneg x)]
  exact Fin.ext ((row_clipw_val x).trans (clipw_toNat_of_nonneg h))

/-- The reference's route — wrap, then the gather's clamp — likewise. -/
theorem row_wrapw {x : BitVec 32} (h : 0 ≤ x.toInt) : row (wrapw x) = row x := by rw [wrapw_of_nonneg h]

/-- A signed comparison `x ≥ 0` that came out true says the word reads non-negative. -/
theorem nonneg_of_sge {x : BitVec 32} (h : IntOp.cmpi .sge x 0#32 = 1#1) : 0 ≤ x.toInt := by
  change BitVec.ofBool ((0#32 : BitVec 32).sle x) = 1#1 at h
  have : (0#32 : BitVec 32).sle x = true := by
    cases hb : (0#32 : BitVec 32).sle x
    · rw [hb] at h; exact absurd h (by decide)
    · rfl
  simpa [BitVec.sle, toInt_zero32] using this

end Cert.Pooling
-- ==== Proof.PreDecode.lean ====
/-
  The precondition, read back: every token id and every reservoir entry is a non-negative word.

  The precondition is the conjunction of three `all`s — the embedding table finite, the token ids `≥ 0`, the reservoir
  table `≥ 0` —, each printed as a reduction by `and` over a comparison's bits. A conjunction that is 1 has both conjuncts 1,
  a reduction by `and` that is 1 met only 1s, and a signed comparison `x ≥ 0` that is 1 says `x` reads non-negative.
-/
import proofs.«423974_j74251394613895_2_alg».proof.Pre_finite_inputs
import proofs.«423974_j74251394613895_2_alg».proof.Proof.Words
import Idealize.ShloMosaic.Lib.ReduceAll
import Idealize.ShloMosaic.Lib.ValueIdx

namespace Cert.Pooling

open Idealize.ShloMosaic Idealize.ShloMosaic.ValueIdx

instance : Subsingleton Cert.Pre_finite_inputs.S_.Idx := ⟨fun a b => funext fun d => d.elim0⟩

theorem nonneg_of_pre [Cert.Pre_finite_inputs.Facts] {F : FTy → Type} [FloatOps F]
    (a0 : IVec Cert.Pre_finite_inputs.S16x2048 32) (a1 : IVec Cert.Pre_finite_inputs.S50257x8 32)
    (a2 : FVec F Cert.Pre_finite_inputs.S50257x128 .f32)
    (h : Cert.Pre_finite_inputs.fn (F := F) a0 a1 a2 = fun _ => 1#1) :
    (∀ i, 0 ≤ (a0 i).toInt) ∧ (∀ i, 0 ≤ (a1 i).toInt) := by
  have h' := congrFun h ix0
  dsimp only [Cert.Pre_finite_inputs.fn] at h'
  obtain ⟨h12, h3⟩ := IntOp.andi_eq_one.1 h'
  obtain ⟨_, h2⟩ := IntOp.andi_eq_one.1 h12
  refine ⟨fun i => ?_, fun i => ?_⟩
  · have := Host.reduce_andi_all _ _ _ _ ix0 h2 i
    exact nonneg_of_sge this
  · have := Host.reduce_andi_all _ _ _ _ ix0 h3 i
    exact nonneg_of_sge this

end Cert.Pooling
-- ==== Proof.LibRowGather.lean ====
/-
  A `stablehlo.gather` that takes whole rows of a two-axis table, read at an index.

  jnp's `table[idx]` over a table [N, C] and an integer array `idx` of any shape lowers to a gather whose start indices are
  `idx` with a trailing unit axis (the index vector's), collapsed_slice_dims [0], start_index_map [0], slice sizes [1, C] and one
  offset axis, the result's last. The result element at `j` is the table at row `min (start word, read signed) (N − 1)` — a
  negative word reads row 0 — and at the column `j` has on the offset axis. Stated for every N, C, start-index shape and result shape;
  a printed record with these dimension numbers is `rowDims …` by `rfl` (its well-formedness field is a proposition).
-/
import Idealize.ShloMosaic.PureOps.ShapeOps
import Idealize.ShloMosaic.Lib.ValueIdx

namespace Cert.Lib.RowGather

open Idealize.ShloMosaic Idealize.ShloMosaic.ValueIdx

variable {N C : Nat} {si t : Shape}

/-- The dimension numbers of a row gather: offset axes `od` (one axis), index vector axis `iv`. -/
abbrev rowDims (N C : Nat) (si t : Shape) (od : List (Fin t.rank)) (iv : Nat)
    (wf : GatherDims.WF ⟨2, ![N, C]⟩ si t od [0] [] [0] [] iv ![1, C]) : GatherDims ⟨2, ![N, C]⟩ si t where
  offsetDims := od
  collapsedSliceDims := [0]
  operandBatchingDims := []
  startIndicesBatchingDims := []
  startIndexMap := [0]
  indexVectorDim := iv
  sliceSizes := ![1, C]
  wf := wf

variable (od : List (Fin t.rank)) (iv : Nat) (wf : GatherDims.WF ⟨2, ![N, C]⟩ si t od [0] [] [0] [] iv ![1, C])

/-- The row read: the start word at the result index's batch coordinates, signed, clamped into [0, N − 1]. -/
theorem operandIdx_row {w : Nat} (j : t.Idx) (idx : IVec si w) :
    ((rowDims N C si t od iv wf).operandIdx j idx 0).val
      = min (idx ((rowDims N C si t od iv wf).siIdx j ⟨0, Nat.zero_lt_one⟩)).toInt.toNat (N - 1) := by
  show (rowDims N C si t od iv wf).start j idx 0 + (rowDims N C si t od iv wf).batchCoord j 0
    + (rowDims N C si t od iv wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C si t od iv wf).startIndexMap from List.mem_singleton.mpr rfl)]
  rfl

/-- The column read: the result index's coordinate on the offset axis. -/
theorem operandIdx_col {w : Nat} (j : t.Idx) (idx : IVec si w) (a : Fin t.rank) (hod : od = [a]) :
    ((rowDims N C si t od iv wf).operandIdx j idx 1).val = (j a).val := by
  subst hod
  show (rowDims N C si t [a] iv wf).start j idx 1 + (rowDims N C si t [a] iv wf).batchCoord j 1
    + (rowDims N C si t [a] iv wf).offCoord j 1 = _
  rw [GatherDims.batchCoord_eq_zero _ _ _ List.not_mem_nil]
  unfold GatherDims.start
  rw [dif_neg (show ¬(1 : Fin 2) ∈ (rowDims N C si t [a] iv wf).startIndexMap from
    (by decide : ¬(1 : Fin 2) ∈ ([0] : List (Fin 2))))]
  simp only [Nat.add_zero, Nat.zero_add]
  unfold GatherDims.offCoord
  rw [dif_pos (show (1 : Fin 2) ∈ (rowDims N C si t [a] iv wf).sKept from
    (GatherDims.mem_sKept _ _).mpr ⟨(by decide : ¬(1 : Fin 2) ∈ ([0] : List (Fin 2))), List.not_mem_nil⟩)]
  rfl

/-- THE ROW GATHER AT AN INDEX: the table at (the clamped start row, the offset coordinate). -/
theorem gather_row_apply {α : Type} {w : Nat} (hN : 0 < N) (x : (⟨2, ![N, C]⟩ : Shape).Idx → α) (idx : IVec si w) (j : t.Idx)
    (a : Fin t.rank) (hod : od = [a]) (hC : t.size a = C) :
    Host.gather (rowDims N C si t od iv wf) x idx j
      = x (ix2 ⟨min (idx ((rowDims N C si t od iv wf).siIdx j ⟨0, Nat.zero_lt_one⟩)).toInt.toNat (N - 1), by omega⟩
            ⟨(j a).val, hC ▸ (j a).isLt⟩) := by
  unfold Host.gather
  congr 1
  funext b
  refine Fin.ext ?_
  match b with
  | ⟨0, _⟩ => exact operandIdx_row od iv wf j idx
  | ⟨1, _⟩ => exact operandIdx_col od iv wf j idx a hod

end Cert.Lib.RowGather
-- ==== Proof.RefValue.lean ====
/-
  The reference's result, read index by index, is the specification `Cert.Pooling.G`.
-/
import proofs.«423974_j74251394613895_2_alg».proof.Proof.Gen.ReferenceIdeal.Run
import proofs.«423974_j74251394613895_2_alg».proof.Proof.Gen.ReferenceIdeal.Read
import proofs.«423974_j74251394613895_2_alg».proof.Proof.Spec
import proofs.«423974_j74251394613895_2_alg».proof.Proof.Words
import proofs.«423974_j74251394613895_2_alg».proof.Proof.LibRowGather
import Idealize.ShloMosaic.Lib.ValueIdx
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.Read Cert.Pooling Cert.Lib.RowGather

/-- The first gather at an index: the reservoir table's row named by the wrapped token id, at slot `r`. -/
theorem gather13_apply (x0 : IVec S16x2048 32) (x1 : IVec S50257x8 32) (b : Fin 16) (s : Fin 2048) (r : Fin 8) :
    val_main_v13 (F := Ideal) x0 x1 (ix3 b s r) = x1 (ix2 (row (val_main_v11 (F := Ideal) x0 (ix2 b s))) r) := by
  unfold val_main_v13
  show Host.gather (rowDims 50257 8 S16x2048x1 S16x2048x8 [2] 2 gather_S50257x8_S16x2048x1_S16x2048x8_2_0_n_n_0_2_18_wf) x1
    (val_main_v12 (F := Ideal) x0) (ix3 b s r) = _
  rw [gather_row_apply [2] 2 _ (by decide) x1 _ (ix3 b s r) 2 rfl rfl]
  have hsi : (rowDims 50257 8 S16x2048x1 S16x2048x8 [2] 2 gather_S50257x8_S16x2048x1_S16x2048x8_2_0_n_n_0_2_18_wf).siIdx
      (ix3 b s r) ⟨0, Nat.zero_lt_one⟩ = ix3 b s (⟨0, Nat.one_pos⟩ : Fin 1) :=
    funext fun a => Fin.ext (by match a with | ⟨0, _⟩ => rfl | ⟨1, _⟩ => rfl | ⟨2, _⟩ => rfl)
  have h12 : idx_main_v12 (ix3 b s (⟨0, Nat.one_pos⟩ : Fin 1)) = ix2 b s :=
    funext fun a => Fin.ext (by match a with | ⟨0, _⟩ => rfl | ⟨1, _⟩ => rfl)
  refine congrArg x1 (funext fun a => Fin.ext ?_)
  match a with
  | ⟨0, _⟩ =>
    show min (val_main_v12 (F := Ideal) x0 ((rowDims 50257 8 S16x2048x1 S16x2048x8 [2] 2
        gather_S50257x8_S16x2048x1_S16x2048x8_2_0_n_n_0_2_18_wf).siIdx (ix3 b s r) ⟨0, Nat.zero_lt_one⟩)).toInt.toNat (50257 - 1)
      = min (val_main_v11 (F := Ideal) x0 (ix2 b s)).toInt.toNat 50256
    rw [hsi, val_main_v12_apply, h12]
  | ⟨1, _⟩ => rfl

/-- The second gather at an index: the masked embedding table's row named by the wrapped reservoir word, at feature `f`. -/
theorem gather20_apply (x0 : IVec S16x2048 32) (x1 : IVec S50257x8 32) (x2 : FVec Ideal S50257x128 .f32)
    (b : Fin 16) (s : Fin 2048) (r : Fin 8) (f : Fin 128) :
    val_main_v20 (F := Ideal) x0 x1 x2 (ix4 b s r f)
      = val_main_v6 (F := Ideal) x2 (ix2 (row (val_main_v18 (F := Ideal) x0 x1 (ix3 b s r))) f) := by
  unfold val_main_v20
  generalize val_main_v6 (F := Ideal) x2 = tab
  show Host.gather (rowDims 50257 128 S16x2048x8x1 S16x2048x8x128 [3] 3
    gather_S50257x128_S16x2048x8x1_S16x2048x8x128_3_0_n_n_0_3_1128_wf) tab
    (val_main_v19 (F := Ideal) x0 x1) (ix4 b s r f) = _
  rw [gather_row_apply [3] 3 _ (by decide) tab _ (ix4 b s r f) 3 rfl rfl]
  have hsi : (rowDims 50257 128 S16x2048x8x1 S16x2048x8x128 [3] 3
      gather_S50257x128_S16x2048x8x1_S16x2048x8x128_3_0_n_n_0_3_1128_wf).siIdx
      (ix4 b s r f) ⟨0, Nat.zero_lt_one⟩ = ix4 b s r (⟨0, Nat.one_pos⟩ : Fin 1) :=
    funext fun a => Fin.ext (by match a with | ⟨0, _⟩ => rfl | ⟨1, _⟩ => rfl | ⟨2, _⟩ => rfl | ⟨3, _⟩ => rfl)
  have h19 : idx_main_v19 (ix4 b s r (⟨0, Nat.one_pos⟩ : Fin 1)) = ix3 b s r :=
    funext fun a => Fin.ext (by match a with | ⟨0, _⟩ => rfl | ⟨1, _⟩ => rfl | ⟨2, _⟩ => rfl)
  refine congrArg tab (funext fun a => Fin.ext ?_)
  match a with
  | ⟨0, _⟩ =>
    show min (val_main_v19 (F := Ideal) x0 x1 ((rowDims 50257 128 S16x2048x8x1 S16x2048x8x128 [3] 3
        gather_S50257x128_S16x2048x8x1_S16x2048x8x128_3_0_n_n_0_3_1128_wf).siIdx (ix4 b s r f) ⟨0, Nat.zero_lt_one⟩)).toInt.toNat
          (50257 - 1)
      = min (val_main_v18 (F := Ideal) x0 x1 (ix3 b s r)).toInt.toNat 50256
    rw [hsi, val_main_v19_apply, h19]
  | ⟨1, _⟩ => rfl

/-- The wrapped token id at an index. -/
theorem v11_apply (x0 : IVec S16x2048 32) (i : S16x2048.Idx) :
    val_main_v11 (F := Ideal) x0 i = wrapw (x0 i) := by
  rw [val_main_v11_apply, val_main_v8_apply, val_main_v10_apply, val_main_v7_apply, val_main_v9_apply]
  rfl

/-- The wrapped reservoir word at an index. -/
theorem v18_apply (x0 : IVec S16x2048 32) (x1 : IVec S50257x8 32) (i : S16x2048x8.Idx) :
    val_main_v18 (F := Ideal) x0 x1 i = wrapw (val_main_v13 (F := Ideal) x0 x1 i) := by
  rw [val_main_v18_apply, val_main_v15_apply, val_main_v17_apply, val_main_v14_apply, val_main_v16_apply]
  rfl

/-- THE REFERENCE'S VALUE: on non-negative token ids and reservoir words both wraps are identities, each gather reads the
    row its start word names, and the sum over the eight slots is the pooled row. -/
theorem ref_eq_G (x0 : IVec S16x2048 32) (x1 : IVec S50257x8 32) (x2 : FVec Ideal S50257x128 .f32)
    (h0 : ∀ i, 0 ≤ (x0 i).toInt) (h1 : ∀ i, 0 ≤ (x1 i).toInt) :
    Read.val_main_v21 (F := Ideal) x0 x1 x2
      = Cert.Pooling.G x0 x1 (Read.val_main_v6 (F := Ideal) x2) (FloatOps.ofBits (F := Ideal) .f32 0x00000000#32) := by
  funext j
  obtain ⟨b, s, f, rfl⟩ : ∃ b s f, j = ix3 b s f := ⟨j 0, j 1, j 2, eq_ix3 j⟩
  rw [val_main_v21_apply, G_ix3]
  unfold pooled
  refine congrArg (_ + ·) (Finset.sum_congr rfl fun r _ => ?_)
  have h21 : idx_main_v21 (ix3 b s f) r = ix4 b s r f :=
    funext fun a => Fin.ext (by match a with | ⟨0, _⟩ => rfl | ⟨1, _⟩ => rfl | ⟨2, _⟩ => rfl | ⟨3, _⟩ => rfl)
  rw [h21, gather20_apply, v18_apply, gather13_apply, v11_apply, row_wrapw (h0 _), row_wrapw (h1 _)]

end Cert.ReferenceIdeal.RefValue

end
-- ==== Proof.Pieces.lean ====
/-
  What one run of the kernel body leaves in the output block's staging buffer, in each of its two cases.

  At the first vocabulary tile of a row block (case A) the body stores the zero block, reads it back and stores
  `0-block + onehot · tile`; at every later tile (case B) it stores `previous contents + onehot · tile`. Both are the
  body's one arithmetic payload `k0_pay2` — of the grid point, the token-id block, the table tile and the block
  accumulated so far — the accumulated block being the zero block `k0_pay1` in case A.
-/
import proofs.«423974_j74251394613895_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A later tile: the accumulated block `xo` plus this tile's contribution. -/
theorem out_B (c : Dev nD) (i : grid0.Coords) (a2 : Memref sig .tc .vmem S4096x1 .i32) (h2 : a2.IsWhole)
    (a3 : Memref sig .tc .vmem S256x128 .bf16) (h3 : a3.IsWhole) (a4 : Memref sig .tc .vmem S4096x128 .f32) (h4 : a4.IsWhole)
    (hc : ¬cond0_0 i) (x0 : Vec F S4096x1 .i32) (x1 : Vec F S256x128 .bf16) (xo : Vec F S4096x128 .f32) :
    out0_B_2 c i a2 h2 a3 h3 a4 h4 hc x0 x1 xo = k0_pay2 i x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S4096x1) hz,
    View.ld_unit_zero (S := S256x128) hz, View.ld_unit_zero (S := S4096x128) hz]

/-- The first tile of a row block: the zero block plus this tile's contribution (the zero block is stored first and read back). -/
theorem out_A (c : Dev nD) (i : grid0.Coords) (a2 : Memref sig .tc .vmem S4096x1 .i32) (h2 : a2.IsWhole)
    (a3 : Memref sig .tc .vmem S256x128 .bf16) (h3 : a3.IsWhole) (a4 : Memref sig .tc .vmem S4096x128 .f32) (h4 : a4.IsWhole)
    (hc : cond0_0 i) (x0 : Vec F S4096x1 .i32) (x1 : Vec F S256x128 .bf16) :
    out0_A_2 c i a2 h2 a3 h3 a4 h4 hc x0 x1 = k0_pay2 i x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S4096x128) hz, View.readCov_unit_zero (S := S4096x128) _ hz]
  simp only [View.readAt_eq_ld, h2.read_unread, h3.read_unread, View.ld_unit_zero (S := S4096x1) hz,
    View.ld_unit_zero (S := S256x128) hz]

end Cert.KernelIdeal.Pieces

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.Payload.lean ====
/-
  The body's arithmetic at one element, over the extended reals.

  With `k` the vocabulary tile of the grid point, `tok p` the token word of row `p` of the block, and `tile` the [256, 128]
  tile of the pooled table, the payload at (p, f) is the accumulated value there plus the sum over the tile's rows q of
  `hot q · tile (q, f)`, where `hot q` is 1 if `tok p` is the vocabulary id `256 k + q` and 0 otherwise: a matrix product
  with a one-hot row picks out one row of the tile, or none.
-/
import proofs.«423974_j74251394613895_2_alg».proof.Proof.Gen.KernelIdeal.Skeleton
import proofs.«423974_j74251394613895_2_alg».proof.Proof.LibPlainDot
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx
open Cert.KernelIdeal Cert.KernelIdeal.Gen

/-- The first vocabulary id of tile `k`, as the body computes it: the word `k · 256`. -/
def tileBase (i : grid0.Coords) : BitVec 32 := Scalar.muli (BitVec.ofNat 32 (i 1).val) 256#32

/-- The one-hot entry for token word `w` at row `q` of the tile starting at word `base`: the comparison's bit, widened and read as a number. -/
def hot (base w : BitVec 32) (q : Fin 256) : EReal :=
  ((((IntOp.cmpi .eq w (IntOp.addi base (BitVec.ofNat 32 q.val))).setWidth 32).toInt : ℝ) : EReal)

theorem pay2_apply (i : grid0.Coords) (x0 : Vec Ideal S4096x1 .i32) (x1 : Vec Ideal S256x128 .bf16) (acc : Vec Ideal S4096x128 .f32)
    (p : Fin 4096) (f : Fin 128) :
    k0_pay2 (F := Ideal) i x0 x1 acc (ix2 p f)
      = acc (ix2 p f) + ∑ q : Fin 256, hot (tileBase i) (x0 (ix2 p 0)) q * x1 (ix2 q f) := by
  unfold k0_pay2
  dsimp only
  rw [addf_apply, shapeCast_self, shapeCast_self, shapeCast_self]
  refine congrArg (acc (ix2 p f) + ·) ?_
  refine (Cert.Lib.PlainDot.matmul_plain_zero_ix2 4096 256 128 (φ₁ := .bf16) (φ₂ := .bf16) none _ x1 p f).trans ?_
  refine Finset.sum_congr rfl fun q _ => ?_
  refine congrArg (· * x1 (ix2 q f)) ?_
  show FloatOps.sitofp (F := Ideal) .f32
      ((IntOp.cmpi .eq (broadcastTo S4096x256 x0 broadcasts_S4096x1_S4096x256 (ix2 p q))
        (broadcastTo S4096x256 (addi (broadcast S1x256 (tileBase i)) (iota Kind.tc S1x256 32 [1] iota_S1x256_d1_w32))
          broadcasts_S1x256_S4096x256 (ix2 p q))).setWidth 32) = _
  rw [broadcastTo_apply x0 broadcasts_S4096x1_S4096x256 (ix2 p q) (ix2 p 0)
      (fun a => by match a with | ⟨0, _⟩ => rfl | ⟨1, _⟩ => rfl),
    broadcastTo_apply _ broadcasts_S1x256_S4096x256 (ix2 p q) (ix2 (0 : Fin 1) q)
      (fun a => by match a with | ⟨0, _⟩ => rfl | ⟨1, _⟩ => rfl)]
  show FloatOps.sitofp (F := Ideal) .f32
      ((IntOp.cmpi .eq (x0 (ix2 p 0)) (IntOp.addi (tileBase i) (iota Kind.tc S1x256 32 [1] iota_S1x256_d1_w32 (ix2 (0 : Fin 1) q)))).setWidth 32) = _
  rw [iota_single_apply]
  rfl

end Cert.KernelIdeal.Payload

end
-- ==== Proof.OneHot.lean ====
/-
  A one-hot row times a tile picks one row of the tile, or none.

  For the tile starting at vocabulary id `256 k` (k below 197, so no word arithmetic wraps) and a token word `w`, the sum
  over the tile's rows q of `hot q · tile q` is `tile (w − 256 k)` when `256 k ≤ w < 256 (k + 1)` and 0 otherwise: `hot q`
  is 1 exactly at the row whose id is `w`, and `0 · x = 0`, `1 · x = x` hold for every extended real `x`.
-/
import proofs.«423974_j74251394613895_2_alg».proof.Proof.Payload

noncomputable section

namespace Cert.KernelIdeal.Payload

open Idealize.ShloMosaic

/-- The one-hot entry is 1 where the token word is the row's vocabulary id, 0 elsewhere. -/
theorem hot_eq (base w : BitVec 32) (q : Fin 256) :
    hot base w q = if w = IntOp.addi base (BitVec.ofNat 32 q.val) then 1 else 0 := by
  unfold hot IntOp.cmpi
  by_cases h : w = IntOp.addi base (BitVec.ofNat 32 q.val)
  · rw [if_pos h]
    have : (w == IntOp.addi base (BitVec.ofNat 32 q.val)) = true := by rw [h]; exact beq_self_eq_true _
    simp only [this]
    have e : ((BitVec.ofBool true).setWidth 32).toInt = 1 := by decide
    rw [e]; norm_num
  · rw [if_neg h]
    have : (w == IntOp.addi base (BitVec.ofNat 32 q.val)) = false := by
      rw [beq_eq_false_iff_ne]; exact h
    simp only [this]
    have e : ((BitVec.ofBool false).setWidth 32).toInt = 0 := by decide
    rw [e]; norm_num

/-- The vocabulary id of row `q` of tile `k`, as a word, has the value `256 k + q`. -/
theorem tileWord_toNat (k : Nat) (hk : k < 197) (q : Fin 256) :
    (IntOp.addi (Scalar.muli (BitVec.ofNat 32 k) 256#32) (BitVec.ofNat 32 q.val)).toNat = k * 256 + q.val := by
  have hq := q.isLt
  unfold IntOp.addi Scalar.muli IntOp.muli
  simp only [BitVec.toNat_add, BitVec.toNat_mul, BitVec.toNat_ofNat]
  omega

/-- THE SELECTION. -/
theorem onehot_sum (k : Nat) (hk : k < 197) (w : BitVec 32) (tile : Fin 256 → EReal) :
    ∑ q : Fin 256, hot (Scalar.muli (BitVec.ofNat 32 k) 256#32) w q * tile q
      = if h : k * 256 ≤ w.toNat ∧ w.toNat < (k + 1) * 256 then tile ⟨w.toNat - k * 256, by omega⟩ else 0 := by
  by_cases h : k * 256 ≤ w.toNat ∧ w.toNat < (k + 1) * 256
  · rw [dif_pos h]
    rw [Finset.sum_eq_single (⟨w.toNat - k * 256, by omega⟩ : Fin 256)]
    · rw [hot_eq, if_pos, one_mul]
      apply BitVec.eq_of_toNat_eq
      rw [tileWord_toNat k hk]
      show w.toNat = k * 256 + (w.toNat - k * 256)
      omega
    · intro q _ hq
      rw [hot_eq, if_neg, zero_mul]
      intro e
      apply hq
      have := congrArg BitVec.toNat e
      rw [tileWord_toNat k hk] at this
      exact Fin.ext (by show q.val = w.toNat - k * 256; omega)
    · intro hq; exact absurd (Finset.mem_univ _) hq
  · rw [dif_neg h]
    refine Finset.sum_eq_zero fun q _ => ?_
    rw [hot_eq, if_neg, zero_mul]
    intro e
    have := congrArg BitVec.toNat e
    rw [tileWord_toNat k hk] at this
    have := q.isLt
    omega

end Cert.KernelIdeal.Payload

end
-- ==== Proof.Accumulate.lean ====
/-
  What the output block's staging buffer holds after each grid point.

  The grid is 8 row blocks of 4096 tokens by 197 vocabulary tiles of 256 ids; point `n` is row block `n / 197`, tile
  `n % 197`. Row `p` of the block has the token word `w` found at row `(n / 197) · 4096 + p` of the token array. After point
  `n` the buffer holds, at (p, f): the padded table's row `w` at column f if `w < 256 · (n % 197 + 1)` — the tiles seen so far
  contain id `w` — and 0 otherwise. A tile adds its row `w − 256 k` exactly when it contains `w`, so the invariant passes from
  one point of a row block to the next, and the first point of a row block starts from the zero block.
-/
import proofs.«423974_j74251394613895_2_alg».proof.Proof.Pieces
import proofs.«423974_j74251394613895_2_alg».proof.Proof.OneHot
import Idealize.ShloMosaic.Lib.Pipeline.Value
import Idealize.ShloMosaic.Lib.ValueIdx

noncomputable section

namespace Cert.KernelIdeal.Accumulate

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Payload

variable (m : (ℓ : Loc nD τ sig) → Buf (Elt Ideal) ℓ)

/-- The token array [32768, 1] and the padded pooled table [50432, 128] as the pallas_call finds them. -/
abbrev tokArr (c : Dev nD) : Vec Ideal S32768x1 .i32 := V m c main_v19
abbrev tabArr (c : Dev nD) : Vec Ideal S50432x128 .bf16 := V m c main_v18
/-- The two input blocks at a grid point. -/
abbrev tokBlk (c : Dev nD) (t : Fin cfg0.N) : Vec Ideal S4096x1 .i32 := iblk m c 0 t
abbrev tileBlk (c : Dev nD) (t : Fin cfg0.N) : Vec Ideal S256x128 .bf16 := iblk m c 1 t

/-- The token word of row `r`. -/
def tokWord (c : Dev nD) (r : Fin 32768) : BitVec 32 := tokArr m c (ix2 r 0)
/-- The padded table at row `w` (a natural number; 0 past the table's end) and column `f`. -/
def tabN (c : Dev nD) (w : ℕ) (f : Fin 128) : EReal := if h : w < 50432 then tabArr m c (ix2 ⟨w, h⟩ f) else 0

theorem N_eq : cfg0.N = 1576 := N_0

/-- Row `p` of point `t`'s token block, in the token array; row `q` of its tile, in the table. -/
def tokRow (t : Fin cfg0.N) (p : Fin 4096) : Fin 32768 :=
  ⟨t.val / 197 * 4096 + p.val, by have := t.isLt; have := N_eq; have := p.isLt; omega⟩
def tileRow (t : Fin cfg0.N) (q : Fin 256) : Fin 50432 :=
  ⟨t.val % 197 * 256 + q.val, by have := q.isLt; have := Nat.mod_lt t.val (by decide : 0 < 197); omega⟩

/-- The printed index maps over the grid: the token block and the output block follow the row block, the tile the vocabulary tile. -/
theorem idx_facts : ∀ t : Fin cfg0.N, win0_0.index t (0 : Fin 2) = t.val / 197 ∧ win0_0.index t (1 : Fin 2) = 0
    ∧ win0_1.index t (0 : Fin 2) = t.val % 197 ∧ win0_1.index t (1 : Fin 2) = 0
    ∧ win0_2.index t (0 : Fin 2) = t.val / 197 ∧ win0_2.index t (1 : Fin 2) = 0
    ∧ (grid0.coords t 1).val = t.val % 197 :=
  (by decide +kernel : ∀ t : Fin grid0.N, win0_0.index t (0 : Fin 2) = t.val / 197 ∧ win0_0.index t (1 : Fin 2) = 0
    ∧ win0_1.index t (0 : Fin 2) = t.val % 197 ∧ win0_1.index t (1 : Fin 2) = 0
    ∧ win0_2.index t (0 : Fin 2) = t.val / 197 ∧ win0_2.index t (1 : Fin 2) = 0
    ∧ (grid0.coords t 1).val = t.val % 197)

/-- The token block read through its window. -/
theorem tokBlk_apply (c : Dev nD) (t : Fin cfg0.N) (p : Fin 4096) :
    tokBlk m c t (ix2 p 0) = tokWord m c (tokRow t p) := by
  obtain ⟨e0, e1, -⟩ := idx_facts t
  show iblk m c 0 t (ix2 p 0) = _
  unfold iblk
  rw [View.read_apply]
  show V m c main_v19 _ = V m c main_v19 _
  congr 1
  funext a
  apply Fin.ext
  match a with
  | ⟨0, _⟩ => show win0_0.index t (0 : Fin 2) * 4096 + 1 * p.val = t.val / 197 * 4096 + p.val; rw [e0]; omega
  | ⟨1, _⟩ => show win0_0.index t (1 : Fin 2) * 1 + 1 * 0 = 0; rw [e1]

/-- The table tile read through its window. -/
theorem tileBlk_apply (c : Dev nD) (t : Fin cfg0.N) (q : Fin 256) (f : Fin 128) :
    tileBlk m c t (ix2 q f) = tabArr m c (ix2 (tileRow t q) f) := by
  obtain ⟨-, -, e2, e3, -⟩ := idx_facts t
  show iblk m c 1 t (ix2 q f) = _
  unfold iblk
  rw [View.read_apply]
  show V m c main_v18 _ = V m c main_v18 _
  congr 1
  funext a
  apply Fin.ext
  match a with
  | ⟨0, _⟩ => show win0_1.index t (0 : Fin 2) * 256 + 1 * q.val = t.val % 197 * 256 + q.val; rw [e2]; omega
  | ⟨1, _⟩ => show win0_1.index t (1 : Fin 2) * 128 + 1 * f.val = f.val; rw [e3]; omega

/-- ONE POINT'S UPDATE at an element: the accumulated value plus the table's row `w` if this tile contains id `w`. -/
theorem step_apply (c : Dev nD) (t : Fin cfg0.N) (acc : Vec Ideal S4096x128 .f32) (p : Fin 4096) (f : Fin 128) :
    k0_pay2 (F := Ideal) (grid0.coords t) (tokBlk m c t) (tileBlk m c t) acc (ix2 p f)
      = acc (ix2 p f) + (if t.val % 197 * 256 ≤ (tokWord m c (tokRow t p)).toNat
            ∧ (tokWord m c (tokRow t p)).toNat < (t.val % 197 + 1) * 256
          then tabN m c (tokWord m c (tokRow t p)).toNat f else 0) := by
  obtain ⟨-, -, -, -, -, -, e6⟩ := idx_facts t
  have hk : t.val % 197 < 197 := Nat.mod_lt _ (by decide)
  rw [pay2_apply]
  refine congrArg (acc (ix2 p f) + ·) ?_
  have hbase : tileBase (grid0.coords t) = Scalar.muli (BitVec.ofNat 32 (t.val % 197)) 256#32 := by
    unfold tileBase; rw [e6]
  rw [hbase, tokBlk_apply m c t p]
  have htile : ∀ q : Fin 256, tileBlk m c t (ix2 q f) = (fun q : Fin 256 => tabArr m c (ix2 (tileRow t q) f)) q :=
    fun q => tileBlk_apply m c t q f
  rw [Finset.sum_congr rfl fun q _ => congrArg (hot _ _ q * ·) (htile q)]
  rw [onehot_sum (t.val % 197) hk (tokWord m c (tokRow t p)) (fun q : Fin 256 => tabArr m c (ix2 (tileRow t q) f))]
  by_cases h : t.val % 197 * 256 ≤ (tokWord m c (tokRow t p)).toNat ∧ (tokWord m c (tokRow t p)).toNat < (t.val % 197 + 1) * 256
  · rw [dif_pos h, if_pos h]
    unfold tabN
    have hlt : (tokWord m c (tokRow t p)).toNat < 50432 := by omega
    rw [dif_pos hlt]
    refine congrArg (fun r : Fin 50432 => tabArr m c (ix2 r f)) (Fin.ext ?_)
    show t.val % 197 * 256 + ((tokWord m c (tokRow t p)).toNat - t.val % 197 * 256) = (tokWord m c (tokRow t p)).toNat
    omega
  · rw [dif_neg h, if_neg h]

/-- The zero block the first tile starts from. -/
theorem pay1_apply (j : S4096x128.Idx) : k0_pay1 (F := Ideal) j = 0 := by
  unfold k0_pay1
  show Ideal.ofBits .f32 0x00000000#32 = 0
  exact Ideal.ofBits_zero_f32

theorem not_in_next (W k : ℕ) (h1 : W < (k + 1) * 256) : ¬((k + 1) * 256 ≤ W ∧ W < (k + 1 + 1) * 256) :=
  fun hh => absurd h1 (Nat.not_lt.mpr hh.1)
theorem lt_next (W k : ℕ) (h1 : W < (k + 1) * 256) : W < (k + 1 + 1) * 256 :=
  Nat.lt_of_lt_of_le h1 (Nat.mul_le_mul_right 256 (Nat.le_succ (k + 1)))
theorem in_next (W k : ℕ) (h1 : ¬W < (k + 1) * 256) (h2 : W < (k + 1 + 1) * 256) :
    (k + 1) * 256 ≤ W ∧ W < (k + 1 + 1) * 256 := ⟨Nat.le_of_not_lt h1, h2⟩
theorem in_first (W : ℕ) (h : W < (0 + 1) * 256) : 0 * 256 ≤ W ∧ W < (0 + 1) * 256 :=
  ⟨(Nat.zero_mul 256).symm ▸ Nat.zero_le W, h⟩

/-- A tile's contribution joins the tiles before it: "below 256 (k+1)" or "in tile k+1" is "below 256 (k+2)". -/
theorem merge_step (W k : ℕ) (x : EReal) :
    (if W < (k + 1) * 256 then x else 0) + (if (k + 1) * 256 ≤ W ∧ W < (k + 1 + 1) * 256 then x else 0)
      = if W < (k + 1 + 1) * 256 then x else 0 := by
  by_cases h1 : W < (k + 1) * 256
  · rw [if_pos h1, if_neg (not_in_next W k h1), if_pos (lt_next W k h1), add_zero]
  · rw [if_neg h1]
    by_cases h2 : W < (k + 1 + 1) * 256
    · rw [if_pos (in_next W k h1 h2), if_pos h2, zero_add]
    · have h3 : ¬((k + 1) * 256 ≤ W ∧ W < (k + 1 + 1) * 256) := fun hh => h2 hh.2
      rw [if_neg h3, if_neg h2, zero_add]

/-- In the first tile "in tile 0" is "below 256". -/
theorem first_step (W k : ℕ) (hk : k = 0) (x : EReal) :
    (if k * 256 ≤ W ∧ W < (k + 1) * 256 then x else 0) = if W < (k + 1) * 256 then x else 0 := by
  subst hk
  by_cases h : W < (0 + 1) * 256
  · rw [if_pos (in_first W h), if_pos h]
  · have h' : ¬(0 * 256 ≤ W ∧ W < (0 + 1) * 256) := fun hh => h hh.2
    rw [if_neg h', if_neg h]

/-- THE CLOSED FORM after point `n`. -/
def accAt (c : Dev nD) (n : ℕ) (hn : n < cfg0.N) (p : Fin 4096) (f : Fin 128) : EReal :=
  if (tokWord m c (tokRow ⟨n, hn⟩ p)).toNat < (n % 197 + 1) * 256 then tabN m c (tokWord m c (tokRow ⟨n, hn⟩ p)).toNat f else 0

/-- What the staging buffer holds after point `n` is the closed form: by induction on the point. -/
theorem outsAt_apply (c : Dev nD) : ∀ (n : ℕ) (hn : n < cfg0.N) (p : Fin 4096) (f : Fin 128),
    outsAt0 m c n hn (ix2 p f) = accAt m c n hn p f
  | 0, hn, p, f => by
    have e := outsAt0_A m c ⟨0, hn⟩ rfl
    have e' : outsAt0 m c 0 hn = k0_pay2 (F := Ideal) (grid0.coords ⟨0, hn⟩) (tokBlk m c ⟨0, hn⟩) (tileBlk m c ⟨0, hn⟩) (k0_pay1 (F := Ideal)) :=
      e.trans (Pieces.out_A (F := Ideal) c (grid0.coords ⟨0, hn⟩) (ms0_0 ⟨0, hn⟩) (hs0_0 ⟨0, hn⟩) (ms0_1 ⟨0, hn⟩) (hs0_1 ⟨0, hn⟩)
        (ms0_2 ⟨0, hn⟩) (hs0_2 ⟨0, hn⟩) ((hcond0_0 ⟨0, hn⟩).mpr rfl) (tokBlk m c ⟨0, hn⟩) (tileBlk m c ⟨0, hn⟩))
    rw [e', step_apply m c ⟨0, hn⟩ (k0_pay1 (F := Ideal)) p f, pay1_apply, zero_add]
    unfold accAt
    exact first_step _ (0 % 197) rfl _
  | n + 1, hn, p, f => by
    by_cases h0 : (n + 1) % 197 = 0
    · have e := outsAt0_A m c ⟨n + 1, hn⟩ h0
      have e' : outsAt0 m c (n + 1) hn = k0_pay2 (F := Ideal) (grid0.coords ⟨n + 1, hn⟩) (tokBlk m c ⟨n + 1, hn⟩) (tileBlk m c ⟨n + 1, hn⟩) (k0_pay1 (F := Ideal)) :=
        e.trans (Pieces.out_A (F := Ideal) c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) ((hcond0_0 ⟨n + 1, hn⟩).mpr h0) (tokBlk m c ⟨n + 1, hn⟩) (tileBlk m c ⟨n + 1, hn⟩))
      rw [e', step_apply m c ⟨n + 1, hn⟩ (k0_pay1 (F := Ideal)) p f, pay1_apply, zero_add]
      unfold accAt
      exact first_step _ ((n + 1) % 197) h0 _
    · have e := outsAt0_B m c ⟨n + 1, hn⟩ h0
      have e' : outsAt0 m c (n + 1) hn = k0_pay2 (F := Ideal) (grid0.coords ⟨n + 1, hn⟩) (tokBlk m c ⟨n + 1, hn⟩) (tileBlk m c ⟨n + 1, hn⟩)
          (outsAt0 m c n (Nat.lt_of_succ_lt hn)) :=
        e.trans (Pieces.out_B (F := Ideal) c (grid0.coords ⟨n + 1, hn⟩) (ms0_0 ⟨n + 1, hn⟩) (hs0_0 ⟨n + 1, hn⟩) (ms0_1 ⟨n + 1, hn⟩) (hs0_1 ⟨n + 1, hn⟩)
          (ms0_2 ⟨n + 1, hn⟩) (hs0_2 ⟨n + 1, hn⟩) (fun h => h0 ((hcond0_0 ⟨n + 1, hn⟩).mp h)) (tokBlk m c ⟨n + 1, hn⟩) (tileBlk m c ⟨n + 1, hn⟩)
          (outsAt0 m c n (Nat.lt_of_succ_lt hn)))
      rw [e', step_apply m c ⟨n + 1, hn⟩ (outsAt0 m c n (Nat.lt_of_succ_lt hn)) p f, outsAt_apply c n (Nat.lt_of_succ_lt hn) p f]
      unfold accAt
      have hrow : tokRow ⟨n, Nat.lt_of_succ_lt hn⟩ p = tokRow ⟨n + 1, hn⟩ p :=
        Fin.ext (by show n / 197 * 4096 + p.val = (n + 1) / 197 * 4096 + p.val; omega)
      have hmod : (n + 1) % 197 = n % 197 + 1 := by clear e e'; omega
      rw [hrow]
      show (if _ < (n % 197 + 1) * 256 then _ else _)
        + (if (n + 1) % 197 * 256 ≤ _ ∧ _ < ((n + 1) % 197 + 1) * 256 then _ else _) = if _ < ((n + 1) % 197 + 1) * 256 then _ else _
      rw [hmod]
      exact merge_step _ _ _

end Cert.KernelIdeal.Accumulate

end
-- ==== Proof.Final.lean ====
/-
  The kernel's result array.

  The output block of row block `i` is written back once, after the last vocabulary tile (points `197 i + 196`), when every
  tile has been seen: it then holds, at (p, f), the padded table's row `w` at column f for the token word `w` of row
  `4096 i + p`. The eight blocks tile the [32768, 128] array, so the array ends holding, at (r, f), the table's row named by
  token `r`; the reshape after the call lays row `2048 b + s` out at (b, s).
-/
import proofs.«423974_j74251394613895_2_alg».proof.Proof.Accumulate
import Idealize.ShloMosaic.Lib.StableHlo.Run

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Accumulate

variable (m : (ℓ : Loc nD τ sig) → Buf (Elt Ideal) ℓ) (ρ : Dev nD → PrngReg)

/-- The [32768, 128] array the call leaves: row `r` is the padded table's row named by token `r`. -/
def outArr (c : Dev nD) : Vec Ideal S32768x128 .f32 :=
  fun j => tabN m c (tokWord m c ⟨(j 0).val, (j 0).isLt⟩).toNat ⟨(j 1).val, (j 1).isLt⟩

/-- Once every tile has been seen, "row w if w is below 256 · 197, else 0" is the padded table's row w: past the table's end it is 0 too. -/
theorem tabN_full (c : Dev nD) (W : ℕ) (f : Fin 128) : (if W < (196 + 1) * 256 then tabN m c W f else 0) = tabN m c W f := by
  by_cases h : W < (196 + 1) * 256
  · rw [if_pos h]
  · rw [if_neg h]
    unfold tabN
    rw [dif_neg (show ¬W < 50432 from h)]

/-- WHAT A FLUSHING POINT WRITES BACK is its block of that array. -/
theorem flushed_eq (c : Dev nD) (t : Fin cfg0.N) (hf : (cfg0.win 2).flush t = true) :
    (dats m 0 c).flushed 2 t = ((cfg0.win 2).blk t).view.read (Elt Ideal) (outArr m c) := by
  have h196 : t.val % 197 = 196 := (flush0_2 t).mp hf
  obtain ⟨-, -, -, -, e4, e5, -⟩ := idx_facts t
  show (cfg0.win 2).cut (grid0.coords t) ((dats m 0 c).after 2 t) = _
  rw [after0_2]
  have hX : ∀ (p : Fin 4096) (f : Fin 128), outsAt0 m c t.val t.isLt (ix2 p f) = accAt m c t.val t.isLt p f :=
    outsAt_apply m c t.val t.isLt
  generalize outsAt0 m c t.val t.isLt = X at hX ⊢
  funext y
  rw [View.read_apply]
  have H0 : (y 0).val < 4096 := Nat.lt_of_lt_of_le (y 0).isLt ((cfg0.win 2).xsize_le (grid0.coords t) 0)
  have H1 : (y 1).val < 128 := Nat.lt_of_lt_of_le (y 1).isLt ((cfg0.win 2).xsize_le (grid0.coords t) 1)
  have hy : (cfg0.win 2).xinj (grid0.coords t) y = ix2 (⟨(y 0).val, H0⟩ : Fin 4096) (⟨(y 1).val, H1⟩ : Fin 128) :=
    funext fun a => Fin.ext (by match a with | ⟨0, _⟩ => rfl | ⟨1, _⟩ => rfl)
  refine ((congrArg X hy).trans (hX _ _)).trans ?_
  unfold accAt outArr
  dsimp only
  rw [h196, tabN_full]
  refine eq_of_heq (HEq.trans (heq_of_eq ?_) (cast_heq _ _).symm)
  refine congr (congrArg (fun r : Fin 32768 => tabN m c (tokWord m c r).toNat) (Fin.ext ?_)) (Fin.ext ?_)
  · show t.val / 197 * 4096 + (y 0).val = win0_2.index t (0 : Fin 2) * 4096 + 1 * (y 0).val
    rw [e4]; omega
  · show (y 1).val = win0_2.index t (1 : Fin 2) * 128 + 1 * (y 1).val
    rw [e5]; omega

/-- An index of the array is in point `t`'s block iff each coordinate is in the block's range on its axis. -/
theorem mem_blk (t : Fin cfg0.N) (i : S32768x128.Idx) :
    i ∈ ((cfg0.win 2).blk t).view.set ↔ ∀ a : Fin 2, win0_2.index t a * S4096x128.size a ≤ (i a).val
      ∧ (i a).val < win0_2.index t a * S4096x128.size a + S4096x128.size a := by
  show i ∈ ((View.whole main_v20).slice (win0_2.rect t)).set ↔ _
  rw [View.set_slice_whole, Rect.mem_set_unit]
  exact Iff.rfl

/-- Every index of the array is in the block of its row block's last point. -/
theorem cover (i : S32768x128.Idx) : ∃ t : Fin cfg0.N, (cfg0.win 2).flush t = true ∧ i ∈ ((cfg0.win 2).blk t).view.set := by
  have hi0 : (i 0).val < 32768 := (i 0).isLt
  have hi1 : (i 1).val < 128 := (i 1).isLt
  have hN := N_eq
  have ht : (i 0).val / 4096 * 197 + 196 < cfg0.N := by omega
  refine ⟨⟨(i 0).val / 4096 * 197 + 196, ht⟩, (flush0_2 _).mpr (by show ((i 0).val / 4096 * 197 + 196) % 197 = 196; omega), ?_⟩
  rw [mem_blk]
  obtain ⟨-, -, -, -, e4, e5, -⟩ := idx_facts ⟨(i 0).val / 4096 * 197 + 196, ht⟩
  intro a
  match a with
  | ⟨0, _⟩ =>
    show win0_2.index ⟨(i 0).val / 4096 * 197 + 196, ht⟩ (0 : Fin 2) * 4096 ≤ (i 0).val
      ∧ (i 0).val < win0_2.index ⟨(i 0).val / 4096 * 197 + 196, ht⟩ (0 : Fin 2) * 4096 + 4096
    rw [e4]
    show ((i 0).val / 4096 * 197 + 196) / 197 * 4096 ≤ (i 0).val ∧ (i 0).val < ((i 0).val / 4096 * 197 + 196) / 197 * 4096 + 4096
    omega
  | ⟨1, _⟩ =>
    show win0_2.index ⟨(i 0).val / 4096 * 197 + 196, ht⟩ (1 : Fin 2) * 128 ≤ (i 1).val
      ∧ (i 1).val < win0_2.index ⟨(i 0).val / 4096 * 197 + 196, ht⟩ (1 : Fin 2) * 128 + 128
    rw [e5]; omega

/-- THE ARRAY after the call. -/
theorem final (c : Dev nD) : (dats m 0 c).arrAt 2 cfg0.N = outArr m c :=
  (dats m 0 c).arrAt_eq_of_cover 2 (outArr m c) (flushed_eq m c) cover

end Cert.KernelIdeal.Final

end
-- ==== Proof.HostPrefix.lean ====
/-
  The two arrays the pipelined region stages, read index by index as the region finds them.

  Before its one region the program clamps the token ids into [0, 50256] and lays them out as one column of 32768 words,
  and builds the pooled table: for each of the 50257 rows and 8 slots the slot's word is clamped, wrapped (a negative
  word has 50257 added) and used as the start row of a gather from the masked embedding table; the 8 gathered rows are
  summed onto the initial value, and 175 rows of zeros are appended.
-/
import proofs.«423974_j74251394613895_2_alg».proof.Proof.Gen.KernelIdeal.Frame
import proofs.«423974_j74251394613895_2_alg».proof.Proof.Spec
import proofs.«423974_j74251394613895_2_alg».proof.Proof.Words
import proofs.«423974_j74251394613895_2_alg».proof.Proof.LibRowGather
import Idealize.ShloMosaic.Lib.ValueIdx
import Idealize.ShloMosaic.Lib.Pipeline.Value
import Idealize.ShloMosaic.Lib.KernelVsHost
import Idealize.ShloMosaic.Lib.StableHlo.Run
import Idealize.ShloMosaic.PureOps.Ideal.Laws

noncomputable section

namespace Cert.KernelIdeal.HostPrefix

open Cert.KernelIdeal Cert.KernelIdeal.Gen Cert.Pooling Cert.Lib.RowGather Idealize.ShloMosaic Idealize.ShloMosaic.ValueIdx
open Idealize.ShloMosaic.TcCoe Idealize.SL.Sem Idealize.ShloMosaic.StableHlo

/-! ## The operations at an index, over any operands -/

/-- A reshape of [16, 2048] words to one column of 32768: entry `b · 2048 + s` of the column is entry (b, s). -/
theorem column_apply (x : IVec S16x2048 32) (b : Fin 16) (s : Fin 2048) :
    shapeCast S32768x1 x shapeCasts_S16x2048_S32768x1 (ix2 ⟨b.val * 2048 + s.val, by omega⟩ 0) = x (ix2 b s) := by
  refine shapeCast_apply x shapeCasts_S16x2048_S32768x1 _ (ix2 b s) ?_
  rw [Shape.rowMajor_val_two, Shape.rowMajor_val_two]
  show b.val * 2048 + s.val = (b.val * 2048 + s.val) * 1 + 0
  omega

/-- Rows below 50257 of the padded table are the table's. -/
theorem pad_inside {α : Type} (x : S50257x128.Idx → α) (z : S_.Idx → α) (v : Fin 50257) (f : Fin 128) :
    pad S50432x128 ![0, 0] ![175, 0] ![0, 0] x z pads_S50257x128_S50432x128_01750_000 h_S_ (ix2 ⟨v.val, by omega⟩ f) = x (ix2 v f) :=
  pad_apply_of_inside _ _ _ x z pads_S50257x128_S50432x128_01750_000 h_S_ _ (ix2 v f) (fun a => match a with
    | ⟨0, _⟩ => by show v.val = 0 + v.val * (0 + 1); omega
    | ⟨1, _⟩ => by show f.val = 0 + f.val * (0 + 1); omega)

/-- Rows from 50257 on hold the padding value. -/
theorem pad_outside {α : Type} (x : S50257x128.Idx → α) (z : S_.Idx → α) (v : Fin 50432) (hv : 50257 ≤ v.val) (f : Fin 128) :
    pad S50432x128 ![0, 0] ![175, 0] ![0, 0] x z pads_S50257x128_S50432x128_01750_000 h_S_ (ix2 v f) = z (Shape.Idx.first h_S_) :=
  pad_apply_of_not_inside _ _ _ x z pads_S50257x128_S50432x128_01750_000 h_S_ _ (0 : Fin 2) (by
    show ¬(0 ≤ v.val ∧ (v.val - 0) % (0 + 1) = 0 ∧ (v.val - 0) / (0 + 1) < 50257)
    omega)

/-- The gather of whole rows of the table at start words `I[v, r]` (carried with a trailing unit axis): row `row I[v, r]`, column f. -/
theorem gather_rows_apply (T : S50257x128.Idx → EReal) (I : IVec S50257x8 32) (v : Fin 50257) (r : Fin 8) (f : Fin 128) :
    Host.gather gather_S50257x128_S50257x8x1_S50257x8x128_2_0_n_n_0_2_1128 T
        (broadcastInDim S50257x8x1 ![0, 1] bcast_S50257x8_S50257x8x1_0_1 I) (ix3 v r f)
      = T (ix2 (row (I (ix2 v r))) f) := by
  show Host.gather (rowDims 50257 128 S50257x8x1 S50257x8x128 [2] 2 gather_S50257x128_S50257x8x1_S50257x8x128_2_0_n_n_0_2_1128_wf) T
    (broadcastInDim S50257x8x1 ![0, 1] bcast_S50257x8_S50257x8x1_0_1 I) (ix3 v r f) = _
  rw [gather_row_apply [2] 2 _ (by decide) T _ (ix3 v r f) 2 rfl rfl]
  have hs : (rowDims 50257 128 S50257x8x1 S50257x8x128 [2] 2 gather_S50257x128_S50257x8x1_S50257x8x128_2_0_n_n_0_2_1128_wf).siIdx
      (ix3 v r f) ⟨0, Nat.zero_lt_one⟩ = ix3 v r (0 : Fin 1) :=
    funext fun b => Fin.ext (by match b with | ⟨0, _⟩ => rfl | ⟨1, _⟩ => rfl | ⟨2, _⟩ => rfl)
  have hw : broadcastInDim S50257x8x1 ![0, 1] bcast_S50257x8_S50257x8x1_0_1 I
      ((rowDims 50257 128 S50257x8x1 S50257x8x128 [2] 2 gather_S50257x128_S50257x8x1_S50257x8x128_2_0_n_n_0_2_1128_wf).siIdx
        (ix3 v r f) ⟨0, Nat.zero_lt_one⟩) = I (ix2 v r) := by
    rw [hs]
    exact broadcastInDim_apply _ bcast_S50257x8_S50257x8x1_0_1 I (ix3 v r (0 : Fin 1)) (ix2 v r) (fun a => match a with
      | ⟨0, _⟩ => by show v.val = if (50257 : Nat) = 1 then 0 else v.val; rw [if_neg (by decide)]
      | ⟨1, _⟩ => by show r.val = if (8 : Nat) = 1 then 0 else r.val; rw [if_neg (by decide)])
  refine congrArg T (funext fun a => Fin.ext ?_)
  match a with
  | ⟨0, _⟩ =>
    show min (broadcastInDim S50257x8x1 ![0, 1] bcast_S50257x8_S50257x8x1_0_1 I
      ((rowDims 50257 128 S50257x8x1 S50257x8x128 [2] 2 gather_S50257x128_S50257x8x1_S50257x8x128_2_0_n_n_0_2_1128_wf).siIdx
        (ix3 v r f) ⟨0, Nat.zero_lt_one⟩)).toInt.toNat (50257 - 1) = min (I (ix2 v r)).toInt.toNat 50256
    rw [hw]
  | ⟨1, _⟩ => rfl

/-- Those gathered rows summed over the 8 slots onto the initial value and narrowed (the identity on extended reals):
    the initial value plus the table's rows `row I[v, r]`, at column f. -/
theorem pooled_apply (T : S50257x128.Idx → EReal) (I : IVec S50257x8 32) (v : Fin 50257) (f : Fin 128) :
    (truncf .bf16 (Host.reduceAdd (Host.gather gather_S50257x128_S50257x8x1_S50257x8x128_2_0_n_n_0_2_1128 (T : FVec Ideal S50257x128 .f32)
        (broadcastInDim S50257x8x1 ![0, 1] bcast_S50257x8_S50257x8x1_0_1 I)) (constant (F := Ideal) S_ .f32 0x00000000#32)
        reducesTo_S50257x8x128_S50257x128_d1 h_S_) bitsLt_bf16_f32 : FVec Ideal S50257x128 .bf16) (ix2 v f)
      = Ideal.ofBits .f32 0x00000000#32 + ∑ r : Fin 8, T (ix2 (row (I (ix2 v r))) f) := by
  show Host.reduceAdd (Host.gather gather_S50257x128_S50257x8x1_S50257x8x128_2_0_n_n_0_2_1128 (T : FVec Ideal S50257x128 .f32)
        (broadcastInDim S50257x8x1 ![0, 1] bcast_S50257x8_S50257x8x1_0_1 I)) (constant (F := Ideal) S_ .f32 0x00000000#32)
        reducesTo_S50257x8x128_S50257x128_d1 h_S_ (ix2 v f) = _
  have hred : S50257x8x128.Reduces [1] S50257x128 := by decide
  generalize hG : Host.gather gather_S50257x128_S50257x8x1_S50257x8x128_2_0_n_n_0_2_1128 (T : FVec Ideal S50257x128 .f32)
        (broadcastInDim S50257x8x1 ![0, 1] bcast_S50257x8_S50257x8x1_0_1 I) = Y
  simp only [Host.reduceAdd, Ideal.hostReduceAdd_def]
  rw [Ideal.hostReduceAdd_single reducesTo_S50257x8x128_S50257x128_d1 hred]
  show _ + ∑ r : Fin 8, Y (hred.lift (ix2 v f) r) = _
  refine congrArg (_ + ·) (Finset.sum_congr rfl fun r _ => ?_)
  have hl : hred.lift (ix2 v f) r = ix3 v r f :=
    funext fun a => Fin.ext (by match a with | ⟨0, _⟩ => rfl | ⟨1, _⟩ => rfl | ⟨2, _⟩ => rfl)
  rw [hl, ← hG]
  exact gather_rows_apply T I v r f

/-! ## The region-entry arrays -/

variable (m : (ℓ : Loc nD τ sig) → Buf (Elt Ideal) ℓ)

/-- the masked embedding table as the region finds it: the program's value %6 -/
abbrev tabK (c : Dev nD) : S50257x128.Idx → EReal := (V m c main_v6 : (⟨S50257x128, .f32⟩ : BufTy).Contents (Elt Ideal))

/-- It is the embedding table times the mask "row ≠ 0", broadcast along the rows. -/
theorem tabK_eq (c : Dev nD) : tabK m c = mulf (m ((c : Thread nD τ).loc main_arg2)) (broadcastInDim S50257x128 ![0, 1] bcast_S50257x1_S50257x128_0_1 (broadcastInDim S50257x1 ![0] bcast_S50257_S50257x1_0 (uitofp (F := Ideal) .f32 (cmpi .ne (iotaInDim S50257 32 0) (broadcastInDim S50257 ![] bcast_S_S50257 (constantI S_ 32 0#32)))))) := by
  dsimp only [tabK, Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results

/-- The slot words clamped into [0, 50256]: the program's value %7. -/
def clipK (c : Dev nD) : IVec S50257x8 32 :=
  minsi (broadcastInDim S50257x8 ![] bcast_S_S50257x8 (constantI S_ 32 50256#32))
    (maxsi (broadcastInDim S50257x8 ![] bcast_S_S50257x8 (constantI S_ 32 0#32))
      (m ((c : Thread nD τ).loc main_arg1) : (⟨S50257x8, .i32⟩ : BufTy).Contents (Elt Ideal)))

/-- The gather's start words, the clamped words wrapped: the program's value %13. -/
def startK (c : Dev nD) : IVec S50257x8 32 :=
  select (cmpi .slt (clipK m c) (broadcastInDim S50257x8 ![] bcast_S_S50257x8 (constantI S_ 32 0#32)))
    (addi (clipK m c) (broadcastInDim S50257x8 ![] bcast_S_S50257x8 (constantI S_ 32 50257#32))) (clipK m c)

theorem startK_apply (c : Dev nD) (v : Fin 50257) (r : Fin 8) :
    startK m c (ix2 v r) = wrapw (clipw (m ((c : Thread nD τ).loc main_arg1) (ix2 v r))) := rfl

/-- The token column as the region finds it (the program's value %19): the clamped token ids, reshaped. -/
theorem tok_e (c : Dev nD) : @Eq (S32768x1.Idx → BitVec 32) (V m c main_v19)
    (shapeCast S32768x1 (minsi (broadcastInDim S16x2048 ![] bcast_S_S16x2048 (constantI S_ 32 50256#32))
      (maxsi (broadcastInDim S16x2048 ![] bcast_S_S16x2048 (constantI S_ 32 0#32))
        (m ((c : Thread nD τ).loc main_arg0) : (⟨S16x2048, .i32⟩ : BufTy).Contents (Elt Ideal)))) shapeCasts_S16x2048_S32768x1) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- Entry `b · 2048 + s` of the token column is token (b, s)'s id, clamped. -/
theorem tokens_apply (c : Dev nD) (b : Fin 16) (s : Fin 2048) :
    (V m c main_v19 : S32768x1.Idx → BitVec 32) (ix2 ⟨b.val * 2048 + s.val, by omega⟩ 0) = clipw (m ((c : Thread nD τ).loc main_arg0) (ix2 b s)) := by
  refine (congrFun (tok_e m c) _).trans ?_
  rw [column_apply]
  rfl

/-- The pooled table as the region finds it (the program's value %18): the gathered rows summed, narrowed, and padded
    below with 175 rows of the converted integer zero. -/
theorem tab_e (c : Dev nD) : @Eq (S50432x128.Idx → EReal) (V m c main_v18)
    (pad S50432x128 ![0, 0] ![175, 0] ![0, 0]
      (truncf .bf16 (Host.reduceAdd (Host.gather gather_S50257x128_S50257x8x1_S50257x8x128_2_0_n_n_0_2_1128 (tabK m c : FVec Ideal S50257x128 .f32)
        (broadcastInDim S50257x8x1 ![0, 1] bcast_S50257x8_S50257x8x1_0_1 (startK m c))) (constant (F := Ideal) S_ .f32 0x00000000#32)
        reducesTo_S50257x8x128_S50257x128_d1 h_S_) bitsLt_bf16_f32 : FVec Ideal S50257x128 .bf16)
      (sitofp (F := Ideal) .bf16 (constantI S_ 32 0#32)) pads_S50257x128_S50432x128_01750_000 h_S_) := by
  dsimp only [tabK, startK, clipK, Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

/-- Row `v < 50257` of the pooled table: the initial value plus, over the 8 slots, the masked table's rows named by the
    slot words of row v (clamped, wrapped, read by the gather), at column f. -/
theorem table_apply (c : Dev nD) (v : Fin 50257) (f : Fin 128) :
    (V m c main_v18 : S50432x128.Idx → EReal) (ix2 ⟨v.val, by omega⟩ f)
      = Ideal.ofBits .f32 0x00000000#32 + ∑ r : Fin 8, tabK m c (ix2 (row (wrapw (clipw (m ((c : Thread nD τ).loc main_arg1) (ix2 v r))))) f) := by
  refine (congrFun (tab_e m c) _).trans ?_
  rw [pad_inside, pooled_apply]
  simp only [startK_apply]

/-- The 175 rows appended to the pooled table are zero. -/
theorem table_pad_apply (c : Dev nD) (v : Fin 50432) (hv : 50257 ≤ v.val) (f : Fin 128) :
    (V m c main_v18 : S50432x128.Idx → EReal) (ix2 v f) = (0 : EReal) := by
  refine (congrFun (tab_e m c) _).trans ?_
  rw [pad_outside _ _ v hv f]
  exact sitofp_zero (φ := .bf16)

end Cert.KernelIdeal.HostPrefix

end
-- ==== Proof.KernelValue.lean ====
/-
  The kernel program's result is the specification `Cert.Pooling.G`.

  After the call a reshape lays the [32768, 128] array out as [16, 2048, 128]: entry (b, s, f) is row `2048 b + s`, column f.
  That row holds the padded pooled table's row named by token (b, s)'s clamped id; on a non-negative id the clamp reads the row
  the reference's gather reads, which is below 50257, so the row is the pooled table's own: the sum, over the eight slots, of the
  masked embedding rows the slot words name — and on non-negative slot words the kernel's clamp-then-wrap names the rows the
  reference's gather names.
-/
import proofs.«423974_j74251394613895_2_alg».proof.Proof.Final
import proofs.«423974_j74251394613895_2_alg».proof.Proof.HostPrefix
import Idealize.ShloMosaic.Lib.StableHlo.Run

noncomputable section

namespace Cert.KernelIdeal.KernelValue

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Accumulate Cert.KernelIdeal.Final Cert.KernelIdeal.HostPrefix Cert.Pooling

variable (m : (ℓ : Loc nD τ sig) → Buf (Elt Ideal) ℓ) (ρ : Dev nD → PrngReg)

/-- The program's result: the call's array, reshaped. -/
def result (c : Dev nD) : Vec Ideal S16x2048x128 .f32 :=
  shapeCast S16x2048x128 (outArr m c) shapeCasts_S32768x128_S16x2048x128

/-- The host operation after the call computes it from the call's array. -/
theorem tail_eq (c : Dev nD) : Pipeline.afterTail₀ cfgs (dats m) 0 (V0 m) [hostOps1] c main_v21 = result m c := by
  unfold Pipeline.afterTail₀
  show StableHlo.after hostOps1 _ (Proc.devRef .tc main_v21) = _
  after_results
  have hw : Pipeline.withArrays (cfgs 0).spec c (V0 m c) (fun w => (dats m 0 c).arrAt w (cfgs 0).N) (Proc.devRef .tc main_v20)
      = outArr m c :=
    (Pipeline.withArrays_arr spec0 launch0.win.arr_inj c _ _ 2).trans (final m c)
  rw [hw]
  rfl

/-- The frame run re-posted: the result buffer at `result`, the arguments unchanged. -/
theorem run : θ_run defs (onTc (τ := τ) (main (F := Ideal))) ⟨m, fun _ => 0, ρ⟩ fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- The reshape at an index: entry (b, s, f) is row `2048 b + s`, column f of the call's array. -/
theorem result_apply (c : Dev nD) (b : Fin 16) (s : Fin 2048) (f : Fin 128) :
    result m c (ix3 b s f) = outArr m c (ix2 ⟨b.val * 2048 + s.val, by omega⟩ f) := by
  unfold result
  refine shapeCast_apply (outArr m c) shapeCasts_S32768x128_S16x2048x128 _ (ix2 ⟨b.val * 2048 + s.val, by omega⟩ f) ?_
  rw [Shape.rowMajor_val_two, Shape.rowMajor_val_three]
  show (b.val * 2048 + s.val) * 128 + f.val = (b.val * 2048 + s.val) * 128 + f.val
  rfl

/-- THE KERNEL'S RESULT IS THE SPECIFICATION, when the token ids and the slot words read non-negative. -/
theorem result_eq_G (c : Dev nD)
    (h0 : ∀ i, 0 ≤ ((m ((c : Thread nD τ).loc main_arg0) : IVec S16x2048 32) i).toInt)
    (h1 : ∀ i, 0 ≤ ((m ((c : Thread nD τ).loc main_arg1) : IVec S50257x8 32) i).toInt) :
    result m c = G (m ((c : Thread nD τ).loc main_arg0)) (m ((c : Thread nD τ).loc main_arg1)) (tabK m c) (Ideal.ofBits .f32 0x00000000#32) := by
  funext j
  obtain ⟨b, s, f, rfl⟩ : ∃ (b : Fin 16) (s : Fin 2048) (f : Fin 128), j = ix3 b s f := ⟨j 0, j 1, j 2, eq_ix3 j⟩
  rw [result_apply, G_ix3]
  unfold outArr
  dsimp only
  have hw : tokWord m c ⟨b.val * 2048 + s.val, by omega⟩ = clipw (m ((c : Thread nD τ).loc main_arg0) (ix2 b s)) :=
    tokens_apply m c b s
  have hrow := clipw_toNat_of_nonneg (h0 (ix2 b s))
  have hlt : (row ((m ((c : Thread nD τ).loc main_arg0) : IVec S16x2048 32) (ix2 b s))).val < 50432 :=
    Nat.lt_trans (row _).isLt (by decide)
  show tabN m c (tokWord m c ⟨b.val * 2048 + s.val, _⟩).toNat f = _
  rw [hw, hrow]
  unfold tabN
  rw [dif_pos hlt]
  refine (table_apply m c (row ((m ((c : Thread nD τ).loc main_arg0) : IVec S16x2048 32) (ix2 b s))) f).trans ?_
  unfold pooled
  refine congrArg (Ideal.ofBits .f32 0x00000000#32 + ·) (Finset.sum_congr rfl fun r _ => ?_)
  rw [row_wrapw_clipw (h1 _)]

end Cert.KernelIdeal.KernelValue

end
-- ==== Proof.lean ====
/- A pooled embedding lookup: `out[b, s, :] = Σ_r w_eff[look[tok[b, s], r], :]`, the frozen row 0 of the table zeroed, over 16 × 2048
   tokens, a [50257, 8] reservoir table and a [50257, 128] embedding table.

   The reference gathers twice and sums over the eight slots. The kernel first pools the table over the slots (one gather-sum over
   the vocabulary, on the host), pads it to 50432 rows, and then selects each token's pooled row by a one-hot matrix product,
   accumulated over 197 vocabulary tiles of 256 rows in a resident output block. Over the extended reals a one-hot row times a tile
   is one row of the tile or zero, so after the last tile the block holds exactly the pooled rows its tokens name (Accumulate, Final).
   The two programs normalise an index differently — the reference wraps a negative index and lets the gather clamp, the kernel
   clamps into [0, 50256] first — and these agree on every non-negative word, which is what the precondition states of both integer
   inputs (Words, PreDecode). Both sides are then the one function `Cert.Pooling.G` of the three argument arrays (Spec): the reference by
   RefValue, the kernel by HostPrefix (the arrays the call is given), KernelValue (the call's result, reshaped).
   The three frames: the two kernel programs' are the generated frame certificates, the reference's its generated run. The ideal
   pass rewrote nothing, so `preserves` is trivial. -/
import proofs.«423974_j74251394613895_2_alg».proof.Defs
import proofs.«423974_j74251394613895_2_alg».proof.Proof.Gen.Kernel
import proofs.«423974_j74251394613895_2_alg».proof.Proof.Gen.Kernel.Skeleton
import proofs.«423974_j74251394613895_2_alg».proof.Proof.Gen.Kernel.Launch
import proofs.«423974_j74251394613895_2_alg».proof.Proof.Gen.Kernel.Points
import proofs.«423974_j74251394613895_2_alg».proof.Proof.Gen.Kernel.Frame
import proofs.«423974_j74251394613895_2_alg».proof.Proof.Gen.KernelIdeal
import proofs.«423974_j74251394613895_2_alg».proof.Proof.Gen.KernelIdeal.Skeleton
import proofs.«423974_j74251394613895_2_alg».proof.Proof.Gen.KernelIdeal.Launch
import proofs.«423974_j74251394613895_2_alg».proof.Proof.Gen.KernelIdeal.Points
import proofs.«423974_j74251394613895_2_alg».proof.Proof.Gen.KernelIdeal.Frame
import proofs.«423974_j74251394613895_2_alg».proof.Proof.Gen.ReferenceIdeal
import proofs.«423974_j74251394613895_2_alg».proof.Proof.Gen.ReferenceIdeal.Run
import proofs.«423974_j74251394613895_2_alg».proof.Proof.Gen.ReferenceIdeal.Read
import proofs.«423974_j74251394613895_2_alg».proof.Proof.Gen.Pre_finite_inputs
import proofs.«423974_j74251394613895_2_alg».proof.Proof.PreDecode
import proofs.«423974_j74251394613895_2_alg».proof.Proof.RefValue
import proofs.«423974_j74251394613895_2_alg».proof.Proof.KernelValue
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the three arguments, with both integer arguments non-negative: the kernel program's result and
    the reference's are the same function `G` of the arguments, over one masked table (both programs compute it by the same
    operations of the embedding table). -/
theorem algebraic : Cert.algebraic_KernelIdeal_ReferenceIdeal := by
  intro m ρ m' ρ' hpre hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨hn0, hn1⟩ := Cert.Pooling.nonneg_of_pre _ _ _ (hpre c)
  rw [Cert.ReferenceIdeal.Read.val_main_v21_eq, (hagree c).1, (hagree c).2.1, (hagree c).2.2,
    Cert.ReferenceIdeal.RefValue.ref_eq_G _ _ _ hn0 hn1]
  show _ = Cert.KernelIdeal.KernelValue.result m c
  rw [Cert.KernelIdeal.KernelValue.result_eq_G m c hn0 hn1, Cert.KernelIdeal.HostPrefix.tabK_eq]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
